-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  main_v3
-- ==== Kernel.lean ====
abbrev S16777216 : Shape := ⟨1, ![16777216]⟩
abbrev S2x65536x128 : Shape := ⟨3, ![2, 65536, 128]⟩
abbrev S2x1x1 : Shape := ⟨3, ![2, 1, 1]⟩
abbrev S1x4096x128 : Shape := ⟨3, ![1, 4096, 128]⟩
abbrev S1x1x1 : Shape := ⟨3, ![1, 1, 1]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S2x65536x128, .f32⟩
  | .hbm, ⟨3, _⟩ => ⟨S2x65536x128, .i32⟩
  | .hbm, ⟨4, _⟩ => ⟨S2x1x1, .f32⟩
  | .hbm, ⟨5, _⟩ => ⟨S_, .f32⟩
  | .hbm, ⟨6, _⟩ => ⟨S_, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .i32⟩
  | .local _ .vmem, ⟨3, _⟩ => ⟨S1x4096x128, .i32⟩
  | .local _ .vmem, ⟨4, _⟩ => ⟨S1x1x1, .f32⟩
  | .local _ .vmem, ⟨5, _⟩ => ⟨S1x1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16777216_S2x65536x128 : S16777216.ShapeCasts S2x65536x128
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S2x65536x128.size a
  hwx0_0 : ∀ i : grid0.Coords, EltTy.bits .f32 = 32 ∨ (Rect.block (s := S2x65536x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S2x65536x128.size a
  hwx0_1 : ∀ i : grid0.Coords, EltTy.bits .i32 = 32 ∨ (Rect.block (s := S2x65536x128) S1x4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S_, .i32⟩
  | .hbm, ⟨3, _⟩ => ⟨S16777216, .i32⟩
  | .hbm, ⟨4, _⟩ => ⟨S16777216, .i1⟩
  | .hbm, ⟨5, _⟩ => ⟨S16777216, .f32⟩
  | .hbm, ⟨6, _⟩ => ⟨S_, .i32⟩
  | .hbm, ⟨7, _⟩ => ⟨S16777216, .i32⟩
  | .hbm, ⟨8, _⟩ => ⟨S16777216, .i1⟩
  | .hbm, ⟨9, _⟩ => ⟨S16777216, .f32⟩
  | .hbm, ⟨10, _⟩ => ⟨S16777216, .f32⟩
  | .hbm, ⟨11, _⟩ => ⟨S_, .f32⟩
  | .hbm, ⟨12, _⟩ => ⟨S16777216, .f32⟩
  | .hbm, ⟨13, _⟩ => ⟨S16777216, .f32⟩
  | .hbm, ⟨14, _⟩ => ⟨S16777216, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel

variable [Facts₀]

class Facts : Prop extends Facts₀ where

variable [Facts]
-- ==== Proof.Pieces.lean ====
/-
  What one run of the kernel body leaves in the output's one-element staging buffer, as a value.

  The body has two control cases. At the first step of a core's sixteen (case A) it stores the zero
  block, reads it back, and stores the update computed from that read-back; at every later step
  (case B) it reads what the step before left and stores the update. In both cases the buffer ends
  holding the body's one arithmetic term `k0_pay2` of the two input blocks and of the accumulator it
  read: the zero block `k0_pay1` in case A, the previous contents in case B. The stores are whole-
  buffer stores, so the last one is all that remains.
-/
import proofs.«141515_j30863634989162_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every access of the body starts at the origin of its buffer. -/
theorem origin3 : (![0, 0, 0] : Fin 3 → Nat) = fun _ => 0 := funext fun a => by fin_cases a <;> rfl

/-- A later step: the update of the previous contents `xo`. -/
theorem out_later (c : Dev nD) (i : grid0.Coords) (a2 : Memref sig .tc .vmem S1x4096x128 .f32) (h2 : a2.IsWhole)
    (a3 : Memref sig .tc .vmem S1x4096x128 .i32) (h3 : a3.IsWhole) (a4 : Memref sig .tc .vmem S1x1x1 .f32) (h4 : a4.IsWhole)
    (hc : ¬cond0_0 i) (x0 : Vec F S1x4096x128 .f32) (x1 : Vec F S1x4096x128 .i32) (xo : Vec F S1x1x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero origin3]
  simp only [View.readAt_eq_ld, h2.read_unread, h3.read_unread, h4.read_unread, View.ld_unit_zero (S := S1x4096x128) origin3,
    View.ld_unit_zero (S := S1x1x1) origin3]

/-- A core's first step: the update of the zero block the step itself stored. -/
theorem out_first (c : Dev nD) (i : grid0.Coords) (a2 : Memref sig .tc .vmem S1x4096x128 .f32) (h2 : a2.IsWhole)
    (a3 : Memref sig .tc .vmem S1x4096x128 .i32) (h3 : a3.IsWhole) (a4 : Memref sig .tc .vmem S1x1x1 .f32) (h4 : a4.IsWhole)
    (hc : cond0_0 i) (x0 : Vec F S1x4096x128 .f32) (x1 : Vec F S1x4096x128 .i32) :
    out0_A_2 c i a2 h2 a3 h3 a4 h4 hc x0 x1 = k0_pay2 x0 x1 k0_pay1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1) origin3]
  simp only [View.readAt_eq_ld, h2.read_unread, h3.read_unread, View.ld_unit_zero (S := S1x4096x128) origin3,
    View.readCov_unit_zero (S := S1x1x1) _ origin3]

end Cert.KernelIdeal.Pieces

end
-- ==== Proof.Consts.lean ====
/-
  The two float constants the programs spell, as the extended reals their words denote.
  `+0.0` is 0. The coefficient word 0x3B83126F (the single-precision number nearest 0.004) is the
  dyadic rational 8589935 · 2⁻³¹: a REAL, and nonnegative, which is all the sum law asks of it.
  Both programs carry the same word, so its exact value is never compared with 1/250.
-/
import Idealize.ShloMosaic.PureOps.Ideal

noncomputable section

namespace Cert.FocalSum

open Idealize.ShloMosaic

/-- `+0.0` denotes `0`. -/
theorem ofBits_zero : Ideal.ofBits .f32 0x00000000#32 = 0 := by
  simp [Ideal.ofBits, Ideal.ieee]

/-- The coefficient as a real number. -/
def coefR : ℝ := 8589935 * (2 : ℝ) ^ (-31 : ℤ)

theorem coefR_nonneg : 0 ≤ coefR := by unfold coefR; positivity

/-- The coefficient's word denotes that real. -/
theorem ofBits_coef : Ideal.ofBits .f32 0x3B83126F#32 = ((coefR : ℝ) : EReal) := by
  unfold coefR
  simp [Ideal.ofBits, Ideal.ieee, -EReal.coe_mul]

end Cert.FocalSum

end
-- ==== Proof.Term.lean ====
/-
  The loss both programs compute, stated once over the flat arrays.

  For a probability p and a class word k the element's term is
      log p          where k = 0,
      log (1 − p)    where k = 1,
      0              otherwise,
  read on the extended reals (log 0 = −∞ exactly; a logarithm's value below 0 is the instance's
  fixed convention, the same on both sides, so no range of p is assumed). The loss is the sum of the
  terms over the 16 777 216 positions, times the coefficient. `tm` is the term at a flat position
  as a function on ALL naturals (0 past the end), which lets the sum be cut into consecutive blocks
  by arithmetic on positions alone.
-/
import Idealize.ShloMosaic.PureOps.Ideal
import Idealize.ShloMosaic.Lib.ValueIdx
import proofs.«141515_j30863634989162_1_alg».proof.Proof.Consts

noncomputable section

namespace Cert.FocalSum

open Idealize.ShloMosaic Idealize.ShloMosaic.ValueIdx

/-- One element's term. -/
def term (x : EReal) (k : BitVec 32) : EReal :=
  Scalar.select (IntOp.cmpi .eq k 0#32) (Ideal.log x)
    (Scalar.select (IntOp.cmpi .eq k 1#32) (Ideal.log1p (-x)) 0)

/-- The flat arrays' shape. -/
abbrev SN : Shape := ⟨1, ![16777216]⟩

/-- The term at flat position `n`; `0` past the end of the arrays. -/
def tm (x : SN.Idx → EReal) (k : SN.Idx → BitVec 32) (n : ℕ) : EReal :=
  if h : n < 16777216 then term (x (ix1 ⟨n, h⟩)) (k (ix1 ⟨n, h⟩)) else 0

theorem tm_of_lt (x : SN.Idx → EReal) (k : SN.Idx → BitVec 32) (n : ℕ) (h : n < 16777216) :
    tm x k n = term (x (ix1 ⟨n, h⟩)) (k (ix1 ⟨n, h⟩)) := dif_pos h

/-- The sum of all the terms. -/
def total (x : SN.Idx → EReal) (k : SN.Idx → BitVec 32) : EReal :=
  ∑ n ∈ Finset.range 16777216, tm x k n

/-- The loss: the total times the coefficient. -/
def loss (x : SN.Idx → EReal) (k : SN.Idx → BitVec 32) : EReal :=
  total x k * (coefR : EReal)

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so the sum of the terms over the array's indices is `total`. -/
theorem sum_idx_eq_total (x : SN.Idx → EReal) (k : SN.Idx → BitVec 32) :
    ∑ j : SN.Idx, term (x j) (k j) = total x k := by
  unfold total
  rw [Finset.sum_range, ← Equiv.sum_comp (idxEquiv1 (n := 16777216)).symm]
  exact Finset.sum_congr rfl fun a _ => (tm_of_lt x k a.val a.isLt).symm

end Cert.FocalSum

end
-- ==== Proof.Payload.lean ====
/-
  The body's arithmetic at the ideal instance, read as one number.

  From an input block p (probabilities) and k (class words), both [1, 4096, 128], and the accumulator a
  it loaded, the body stores
        a + (Σ_r Σ_l term (p[0, r, l]) (k[0, r, l])) · coefficient :
  the masked logarithms are summed along the lanes, the 4096 row sums along the sublanes, the total is
  scaled and added to the accumulator. The kernel spells 1 − p's argument as 0 − p; on the extended
  reals 0 − p is −p, the reference's negation. The unit-axis reshapes in between only rename
  positions: each is read at the index with the same row-major position.
-/
import proofs.«141515_j30863634989162_1_alg».proof.Proof.Gen.KernelIdeal.Skeleton
import proofs.«141515_j30863634989162_1_alg».proof.Proof.Term
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen Cert.FocalSum

/-- The masked logarithms of a [4096, 128] block, as the body computes them. -/
def masked (v4 : FVec Ideal S4096x128 .f32) (v6 : IVec S4096x128 32) : FVec Ideal S4096x128 .f32 :=
  select (cmpi .eq v6 (broadcast S4096x128 0#32)) (log v4)
    (select (cmpi .eq v6 (broadcast S4096x128 1#32))
      (log1p (subf (broadcast S4096x128 (Scalar.ofBits .f32 0x00000000#32)) v4))
      (broadcast S4096x128 (Scalar.ofBits .f32 0x00000000#32)))

/-- At each position they are the element's term: `0 − p = −p`. -/
theorem masked_apply (v4 : FVec Ideal S4096x128 .f32) (v6 : IVec S4096x128 32) (i : S4096x128.Idx) :
    masked v4 v6 i = term (v4 i) (v6 i) := by
  show Scalar.select (IntOp.cmpi .eq (v6 i) 0#32) (Ideal.log (v4 i))
      (Scalar.select (IntOp.cmpi .eq (v6 i) 1#32) (Ideal.log1p (Ideal.ofBits .f32 0x00000000#32 - v4 i)) (Ideal.ofBits .f32 0x00000000#32)) = _
  rw [ofBits_zero, zero_sub]
  rfl

/-- A lane sum: row `r` of a [4096, 128] block summed over its 128 lanes. -/
theorem lanes_sum (u : FVec Ideal S4096x128 .f32) (hφ : FKind.Formats .f32)
    (hacc : (0x00000000#32 : BitVec 32) = FKind.add.neutral .f32 hφ) (r : Fin 4096) :
    multiReduction .add [1] S4096 u 0x00000000#32 reduces_S4096x128_S4096 hφ hacc (ix1 r) = ∑ l : Fin 128, u (ix2 r l) := by
  refine (Ideal.multiReduction_add_single u _ reduces_S4096x128_S4096 hφ hacc (ix1 r)).trans ?_
  refine Finset.sum_congr rfl fun l _ => congrArg u ?_
  funext a
  match a with
  | ⟨0, _⟩ => rfl
  | ⟨1, _⟩ => rfl

/-- A sublane sum: a [4096, 1] column summed over its 4096 rows. -/
theorem rows_sum (u : FVec Ideal S4096x1 .f32) (hφ : FKind.Formats .f32)
    (hacc : (0x00000000#32 : BitVec 32) = FKind.add.neutral .f32 hφ) :
    multiReduction .add [0] S1 u 0x00000000#32 reduces_S4096x1_S1 hφ hacc (ix1 0) = ∑ r : Fin 4096, u (ix2 r 0) := by
  refine (Ideal.multiReduction_add_single u _ reduces_S4096x1_S1 hφ hacc (ix1 0)).trans ?_
  refine Finset.sum_congr rfl fun r _ => congrArg u ?_
  funext a
  match a with
  | ⟨0, _⟩ => rfl
  | ⟨1, _⟩ => rfl

/-- The stored value: the accumulator plus the block's scaled sum of terms. -/
theorem update_apply (v3 : Vec Ideal S1x4096x128 .f32) (v5 : Vec Ideal S1x4096x128 .i32) (v22 : Vec Ideal S1x1x1 .f32) :
    k0_pay2 (F := Ideal) v3 v5 v22 (ix3 0 0 0)
      = v22 (ix3 0 0 0) + (∑ r : Fin 4096, ∑ l : Fin 128, term (v3 (ix3 0 r l)) (v5 (ix3 0 r l))) * Ideal.ofBits .f32 0x3B83126F#32 := by
  have hpay : k0_pay2 (F := Ideal) v3 v5 v22
      = shapeCast S1x1x1 (addf (shapeCast S1x1 v22 shapeCasts_S1x1x1_S1x1)
          (mulf (shapeCast S1x1 (multiReduction .add [0] S1 (shapeCast S4096x1
              (multiReduction .add [1] S4096 (masked (shapeCast S4096x128 v3 shapeCasts_S1x4096x128_S4096x128)
                (shapeCast S4096x128 v5 shapeCasts_S1x4096x128_S4096x128)) 0x00000000#32 reduces_S4096x128_S4096 (.inl rfl) rfl)
              shapeCasts_S4096_S4096x1) 0x00000000#32 reduces_S4096x1_S1 (.inl rfl) rfl) shapeCasts_S1_S1x1)
            (broadcast S1x1 (Scalar.ofBits .f32 0x3B83126F#32)))) shapeCasts_S1x1_S1x1x1 := rfl
  rw [hpay]
  rw [shapeCast_apply _ shapeCasts_S1x1_S1x1x1 (ix3 0 0 0) (ix2 0 0) (by rw [Shape.rowMajor_val_two, Shape.rowMajor_val_three]; rfl)]
  rw [addf_apply, mulf_apply, broadcast_apply]
  rw [shapeCast_apply v22 shapeCasts_S1x1x1_S1x1 (ix2 0 0) (ix3 0 0 0) (by rw [Shape.rowMajor_val_two, Shape.rowMajor_val_three]; rfl)]
  rw [shapeCast_apply _ shapeCasts_S1_S1x1 (ix2 0 0) (ix1 0) (by rw [Shape.rowMajor_val_two, Shape.rowMajor_val_one]; rfl)]
  refine congrArg (fun z : EReal => v22 (ix3 0 0 0) + z * Ideal.ofBits .f32 0x3B83126F#32) ?_
  refine (rows_sum _ _ _).trans ?_
  refine Finset.sum_congr rfl fun r _ => ?_
  refine (shapeCast_apply _ shapeCasts_S4096_S4096x1 (ix2 r 0) (ix1 r)
    (by rw [Shape.rowMajor_val_two, Shape.rowMajor_val_one]; show (r : ℕ) = (r : ℕ) * 1 + 0; omega)).trans ?_
  refine (lanes_sum _ _ _ r).trans ?_
  refine Finset.sum_congr rfl fun l _ => ?_
  refine (masked_apply _ _ _).trans ?_
  rw [shapeCast_apply v3 shapeCasts_S1x4096x128_S4096x128 (ix2 r l) (ix3 0 r l)
      (by rw [Shape.rowMajor_val_two, Shape.rowMajor_val_three]; show ((0 : ℕ) * 4096 + (r : ℕ)) * 128 + (l : ℕ) = (r : ℕ) * 128 + (l : ℕ); omega),
    shapeCast_apply v5 shapeCasts_S1x4096x128_S4096x128 (ix2 r l) (ix3 0 r l)
      (by rw [Shape.rowMajor_val_two, Shape.rowMajor_val_three]; show ((0 : ℕ) * 4096 + (r : ℕ)) * 128 + (l : ℕ) = (r : ℕ) * 128 + (l : ℕ); omega)]

/-- The zero block's one element is `0`. -/
theorem zero_block_apply (y : S1x1x1.Idx) : k0_pay1 (F := Ideal) y = 0 := by
  show Ideal.ofBits .f32 0x00000000#32 = 0
  exact ofBits_zero

end Cert.KernelIdeal.Payload

end
-- ==== Proof.Blocks.lean ====
/-
  Where an element of an input block lies in the flat argument.

  The host views each flat argument of 16 777 216 elements as [2, 65536, 128] (a reshape: the same
  row-major positions), and grid point t = 16·core + step fetches the [1, 4096, 128] block with index
  (core, step, 0). Element (0, r, l) of that block therefore sits at array index
  (core, 4096·step + r, l), whose flat position is
        core · 8 388 608 + (4096·step + r) · 128 + l  =  t · 524 288 + r · 128 + l :
  the 32 blocks are the 32 consecutive stretches of 524 288 positions.
-/
import proofs.«141515_j30863634989162_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The probabilities as the region finds them: the flat argument viewed as [2, 65536, 128]. -/
theorem entry_p (c : Dev nD) :
    (V m c main_v0 : S2x65536x128.Idx → F .f32)
      = shapeCast S2x65536x128 (m ((c : Thread nD τ).loc main_arg0)) shapeCasts_S16777216_S2x65536x128 := by
  show StableHlo.after hostOps0 (fun b => m (c, b)) (Proc.devRef .tc main_v0) = _
  after_results
  rfl

/-- The class words likewise. -/
theorem entry_k (c : Dev nD) :
    (V m c main_v1 : S2x65536x128.Idx → BitVec 32)
      = shapeCast S2x65536x128 (m ((c : Thread nD τ).loc main_arg1)) shapeCasts_S16777216_S2x65536x128 := by
  show StableHlo.after hostOps0 (fun b => m (c, b)) (Proc.devRef .tc main_v1) = _
  after_results
  rfl

/-- Point `t` fetches block (t / 16, t % 16, 0) of the probabilities … -/
theorem index_p : ∀ t : Fin cfg0.N, win0_0.index t (0 : Fin 3) = t.val / 16 ∧ win0_0.index t (1 : Fin 3) = t.val % 16 ∧ win0_0.index t (2 : Fin 3) = 0 :=
  (by decide +kernel : ∀ t : Fin grid0.N, win0_0.index t (0 : Fin 3) = t.val / 16 ∧ win0_0.index t (1 : Fin 3) = t.val % 16 ∧ win0_0.index t (2 : Fin 3) = 0)

/-- … and the same block of the class words. -/
theorem index_k : ∀ t : Fin cfg0.N, win0_1.index t (0 : Fin 3) = t.val / 16 ∧ win0_1.index t (1 : Fin 3) = t.val % 16 ∧ win0_1.index t (2 : Fin 3) = 0 :=
  (by decide +kernel : ∀ t : Fin grid0.N, win0_1.index t (0 : Fin 3) = t.val / 16 ∧ win0_1.index t (1 : Fin 3) = t.val % 16 ∧ win0_1.index t (2 : Fin 3) = 0)

/-- Element (0, r, l) of the probabilities' block at point `t` is the flat argument at `t·524288 + r·128 + l`. -/
theorem block_p (c : Dev nD) (t : Fin cfg0.N) (r : Fin 4096) (l : Fin 128) (h : t.val * 524288 + r.val * 128 + l.val < 16777216) :
    (iblk m c 0 t : Vec F S1x4096x128 .f32) (ix3 0 r l)
      = m ((c : Thread nD τ).loc main_arg0) (ix1 ⟨t.val * 524288 + r.val * 128 + l.val, h⟩) := by
  have hi := index_p t
  unfold iblk
  rw [View.read_apply]
  show V m c main_v0 (((cfg0.win 0).blk t).view.emb (ix3 0 r l)) = _
  rw [entry_p m c]
  refine shapeCast_apply _ shapeCasts_S16777216_S2x65536x128 _ (ix1 ⟨t.val * 524288 + r.val * 128 + l.val, h⟩) ?_
  rw [Shape.rowMajor_val_one, Shape.rowMajor_val_three]
  have e0 : ((((cfg0.win 0).blk t).view.emb (ix3 0 r l) 0) : ℕ) = win0_0.index t 0 * 1 + 1 * (0 : ℕ) := rfl
  have e1 : ((((cfg0.win 0).blk t).view.emb (ix3 0 r l) 1) : ℕ) = win0_0.index t 1 * 4096 + 1 * r.val := rfl
  have e2 : ((((cfg0.win 0).blk t).view.emb (ix3 0 r l) 2) : ℕ) = win0_0.index t 2 * 128 + 1 * l.val := rfl
  rw [e0, e1, e2, hi.1, hi.2.1, hi.2.2]
  show t.val * 524288 + r.val * 128 + l.val
    = ((t.val / 16 * 1 + 1 * 0) * 65536 + (t.val % 16 * 4096 + 1 * r.val)) * 128 + (0 * 128 + 1 * l.val)
  omega

/-- The same for the class words' block. -/
theorem block_k (c : Dev nD) (t : Fin cfg0.N) (r : Fin 4096) (l : Fin 128) (h : t.val * 524288 + r.val * 128 + l.val < 16777216) :
    (iblk m c 1 t : Vec F S1x4096x128 .i32) (ix3 0 r l)
      = m ((c : Thread nD τ).loc main_arg1) (ix1 ⟨t.val * 524288 + r.val * 128 + l.val, h⟩) := by
  have hi := index_k t
  unfold iblk
  rw [View.read_apply]
  show V m c main_v1 (((cfg0.win 1).blk t).view.emb (ix3 0 r l)) = _
  rw [entry_k m c]
  refine shapeCast_apply _ shapeCasts_S16777216_S2x65536x128 _ (ix1 ⟨t.val * 524288 + r.val * 128 + l.val, h⟩) ?_
  rw [Shape.rowMajor_val_one, Shape.rowMajor_val_three]
  have e0 : ((((cfg0.win 1).blk t).view.emb (ix3 0 r l) 0) : ℕ) = win0_1.index t 0 * 1 + 1 * (0 : ℕ) := rfl
  have e1 : ((((cfg0.win 1).blk t).view.emb (ix3 0 r l) 1) : ℕ) = win0_1.index t 1 * 4096 + 1 * r.val := rfl
  have e2 : ((((cfg0.win 1).blk t).view.emb (ix3 0 r l) 2) : ℕ) = win0_1.index t 2 * 128 + 1 * l.val := rfl
  rw [e0, e1, e2, hi.1, hi.2.1, hi.2.2]
  show t.val * 524288 + r.val * 128 + l.val
    = ((t.val / 16 * 1 + 1 * 0) * 65536 + (t.val % 16 * 4096 + 1 * r.val)) * 128 + (0 * 128 + 1 * l.val)
  omega

end Cert.KernelIdeal.Blocks

end
-- ==== Proof.SumLaws.lean ====
/-
  Finite sums over the extended reals and over the naturals, with nothing of the programs in them.

  * A nonnegative REAL factor moves across a finite sum of extended reals. No finiteness of the
    summands is needed: for a real c ≥ 0 the law (a + b) · c = a · c + b · c holds at ±∞ as well
    (it is only an infinite or a negative factor that can break it, through ⊤ + ⊥).
  * `a` consecutive blocks of `b` naturals tile the first `a · b` naturals, so a sum over a range
    is the sum over the blocks of the sums inside each block; the same with the inner position split
    once more into a row and a lane.
-/
import Mathlib.Data.EReal.Operations
import Mathlib.Algebra.BigOperators.Fin
import Mathlib.Algebra.BigOperators.Group.Finset.Basic

namespace Cert.FocalSum

open Finset

/-- A nonnegative real factor distributes over a finite sum of extended reals. -/
theorem sum_mul_coe {ι : Type*} (s : Finset ι) (c : ℝ) (hc : 0 ≤ c) (f : ι → EReal) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- `a` consecutive blocks of length `b` tile the first `a * b` naturals. -/
theorem sum_range_blocks {M : Type*} [AddCommMonoid M] (f : ℕ → M) (a b : ℕ) :
    ∑ u ∈ range a, ∑ q ∈ range b, f (u * b + q) = ∑ n ∈ range (a * b), f n := by
  induction a with
  | zero => simp
  | succ a ih => rw [Finset.sum_range_succ, ih, Nat.succ_mul, Finset.sum_range_add]

/-- The same with the block's positions counted by `Fin`s: a row `r` and a lane `l` at `r * w + l`. -/
theorem sum_fin_rows {M : Type*} [AddCommMonoid M] (f : ℕ → M) (h w : ℕ) :
    ∑ r : Fin h, ∑ l : Fin w, f (r.val * w + l.val) = ∑ n ∈ range (h * w), f n := by
  rw [← sum_range_blocks f h w, Finset.sum_range]
  exact Finset.sum_congr rfl fun r _ => (Finset.sum_range (fun q => f (r.val * w + q))).symm

end Cert.FocalSum
-- ==== Proof.Acc.lean ====
/-
  The accumulator, step by step.

  Write B(u) for the sum of the terms over the u-th stretch of 524 288 flat positions, and
  s(u) = B(u) · coefficient for what grid point u adds. Point t = 16·core + step reads exactly the
  t-th stretch, so the body turns an accumulator a into a + s(t). A core's first step starts from the
  zero it has just stored; every later step starts from what the step before left. Hence after point
  n the output's one-element buffer holds
        s(16·(n/16)) + s(16·(n/16) + 1) + … + s(n),
  the partial sum of the current core's steps — by induction on n, never by listing the 32 points.
-/
import proofs.«141515_j30863634989162_1_alg».proof.Proof.Pieces
import proofs.«141515_j30863634989162_1_alg».proof.Proof.Payload
import proofs.«141515_j30863634989162_1_alg».proof.Proof.Blocks
import proofs.«141515_j30863634989162_1_alg».proof.Proof.SumLaws

noncomputable section

open Idealize.ShloMosaic Idealize.ShloMosaic.TcCoe Idealize.SL.Sem Idealize.ShloMosaic.ValueIdx

namespace Cert.KernelIdeal.Acc

open Cert.KernelIdeal Cert.KernelIdeal.Gen Cert.FocalSum Finset

variable (m : (ℓ : Loc nD τ sig) → Buf (Elt Ideal) ℓ)

/-- The flat probabilities on core `c`. -/
abbrev parr (c : Dev nD) : SN.Idx → EReal := m ((c : Thread nD τ).loc main_arg0)
/-- The flat class words on core `c`. -/
abbrev karr (c : Dev nD) : SN.Idx → BitVec 32 := m ((c : Thread nD τ).loc main_arg1)

/-- The sum of the terms over the `u`-th stretch of 524288 positions. -/
def blockSum (c : Dev nD) (u : ℕ) : EReal :=
  ∑ q ∈ range 524288, tm (parr m c) (karr m c) (u * 524288 + q)

/-- What grid point `u` adds to the accumulator. -/
def step (c : Dev nD) (u : ℕ) : EReal := blockSum m c u * Ideal.ofBits .f32 0x3B83126F#32

/-- The body at point `t` adds `step t` to the accumulator it read. -/
theorem update_at (c : Dev nD) (t : Fin cfg0.N) (acc : Vec Ideal S1x1x1 .f32) :
    k0_pay2 (F := Ideal) (iblk m c 0 t) (iblk m c 1 t) acc (ix3 0 0 0) = acc (ix3 0 0 0) + step m c t.val := by
  have hN : t.val < 32 := lt_of_lt_of_eq t.isLt (show cfg0.N = 32 from N_0)
  refine (Payload.update_apply (iblk m c 0 t) (iblk m c 1 t) acc).trans ?_
  refine congrArg (fun z : EReal => acc (ix3 0 0 0) + z * Ideal.ofBits .f32 0x3B83126F#32) ?_
  refine Eq.trans ?_ (sum_fin_rows (fun n => tm (parr m c) (karr m c) (t.val * 524288 + n)) 4096 128)
  refine Finset.sum_congr rfl fun r _ => Finset.sum_congr rfl fun l _ => ?_
  have hb : t.val * 524288 + r.val * 128 + l.val < 16777216 := by
    have := r.isLt; have := l.isLt; omega
  rw [Blocks.block_p m c t r l hb, Blocks.block_k m c t r l hb]
  show _ = tm _ _ (t.val * 524288 + (r.val * 128 + l.val))
  rw [← Nat.add_assoc, tm_of_lt _ _ _ hb]

/-- The partial sum of the current core's steps up to point `n`. -/
def accAt (c : Dev nD) (n : ℕ) : EReal := ∑ j ∈ range (n % 16 + 1), step m c (16 * (n / 16) + j)

theorem accAt_first (c : Dev nD) (n : ℕ) (h0 : n % 16 = 0) : accAt m c n = step m c n := by
  unfold accAt
  rw [h0, Nat.zero_add, Finset.sum_range_one]
  have e : 16 * (n / 16) + 0 = n := by omega
  rw [e]

theorem accAt_next (c : Dev nD) (n : ℕ) (h0 : ¬(n + 1) % 16 = 0) :
    accAt m c (n + 1) = accAt m c n + step m c (n + 1) := by
  unfold accAt
  have e1 : (n + 1) % 16 = n % 16 + 1 := by omega
  have e2 : (n + 1) / 16 = n / 16 := by omega
  have e3 : 16 * (n / 16) + (n % 16 + 1) = n + 1 := by omega
  rw [e1, e2, Finset.sum_range_succ, e3]

/-- After point `n` the output's buffer holds the partial sum of the current core's steps. -/
theorem outsAt_eq (c : Dev nD) : ∀ (n : ℕ) (h : n < cfg0.N), outsAt0 m c n h (ix3 0 0 0) = accAt m c n
  | 0, h => by
    rw [outsAt0_A m c ⟨0, h⟩ rfl, Pieces.out_first, update_at m c ⟨0, h⟩, Payload.zero_block_apply, zero_add]
    exact (accAt_first m c 0 rfl).symm
  | n + 1, h => by
    by_cases h0 : (n + 1) % 16 = 0
    · rw [outsAt0_A m c ⟨n + 1, h⟩ h0, Pieces.out_first, update_at m c ⟨n + 1, h⟩, Payload.zero_block_apply, zero_add]
      exact (accAt_first m c (n + 1) h0).symm
    · rw [outsAt0_B m c ⟨n + 1, h⟩ h0, Pieces.out_later, update_at m c ⟨n + 1, h⟩]
      show outsAt0 m c n _ (ix3 0 0 0) + step m c (n + 1) = _
      rw [outsAt_eq c n, accAt_next m c n h0]

end Cert.KernelIdeal.Acc

end
-- ==== Proof.Final.lean ====
/-
  The kernel program's result is the loss.

  The output array is [2, 1, 1]: one element per core. Its block (core, 0, 0) is written back once, after
  the core's sixteenth step (points 15 and 31), when the one-element buffer holds the sum of the core's
  sixteen steps; the two write-backs cover the array, so element (core, 0, 0) ends at
        s(16·core) + … + s(16·core + 15).
  After the region the host sums the two elements from 0. The two runs of sixteen steps are the 32
  steps in order, each step is its stretch's sum of terms times the coefficient, the nonnegative real
  coefficient moves out of the sum of the 32 stretch sums, and the 32 consecutive stretches of 524 288
  positions are the 16 777 216 positions: the result is the total of the terms times the coefficient.
-/
import proofs.«141515_j30863634989162_1_alg».proof.Proof.Acc
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.FocalSum Cert.KernelIdeal.Acc Finset

variable (m : (ℓ : Loc nD τ sig) → Buf (Elt Ideal) ℓ) (ρ : Dev nD → PrngReg)

/-- The per-core sums the region leaves: element (core, 0, 0) is the partial sum after the core's last step. -/
def partials (c : Dev nD) : S2x1x1.Idx → EReal := fun i => accAt m c (16 * (i 0).val + 15)

/-- Point `t` writes block (t / 16, 0, 0) of the output, a whole [1, 1, 1] block. -/
theorem index_o : ∀ t : Fin cfg0.N, win0_2.index t (0 : Fin 3) = t.val / 16 ∧ win0_2.index t (1 : Fin 3) = 0 ∧ win0_2.index t (2 : Fin 3) = 0
    ∧ ∀ a, win0_2.xsize (grid0.coords t) a = 1 :=
  (by decide +kernel : ∀ t : Fin grid0.N, win0_2.index t (0 : Fin 3) = t.val / 16 ∧ win0_2.index t (1 : Fin 3) = 0 ∧ win0_2.index t (2 : Fin 3) = 0
    ∧ ∀ a, win0_2.xsize (grid0.coords t) a = 1)

/-- A [1, 1, 1] block has one index. -/
theorem unit_idx (y : S1x1x1.Idx) : y = ix3 0 0 0 := by
  funext a
  apply Fin.ext
  match a with
  | ⟨0, _⟩ => have h : (y 0).val < 1 := (y 0).isLt; show (y 0).val = 0; omega
  | ⟨1, _⟩ => have h : (y 1).val < 1 := (y 1).isLt; show (y 1).val = 0; omega
  | ⟨2, _⟩ => have h : (y 2).val < 1 := (y 2).isLt; show (y 2).val = 0; omega

/-- What a write-back writes (at the points ≡ 15 mod 16) is the output's block read off the per-core sums. -/
theorem flushed_eq (c : Dev nD) (t : Fin cfg0.N) (hf : (cfg0.win 2).flush t = true) :
    (dats m 0 c).flushed 2 t = ((cfg0.win 2).blk t).view.read (Elt Ideal) (partials m c) := by
  have h15 : t.val % 16 = 15 := (flush0_2 t).mp hf
  show (cfg0.win 2).cut (grid0.coords t) ((dats m 0 c).after 2 t) = _
  rw [after0_2]
  funext y
  rw [View.read_apply]
  show outsAt0 m c t.val t.isLt ((cfg0.win 2).xinj (grid0.coords t) y) = partials m c (((cfg0.win 2).blk t).view.emb y)
  rw [unit_idx ((cfg0.win 2).xinj (grid0.coords t) y), outsAt_eq]
  unfold partials
  have e0 : ((((cfg0.win 2).blk t).view.emb y 0) : ℕ) = win0_2.index t 0 * 1 + 1 * (y 0).val := rfl
  have hy : (y 0).val = 0 := by have h : (y 0).val < 1 := (y 0).isLt; omega
  rw [e0, (index_o t).1, hy]
  have e : 16 * (t.val / 16 * 1 + 1 * 0) + 15 = t.val := by omega
  rw [e]

/-- The two write-backs cover the [2, 1, 1] array: element (k, 0, 0) lies in the block point 16k + 15 writes. -/
theorem final_o (c : Dev nD) : (dats m 0 c).arrAt 2 cfg0.N = partials m c :=
  (dats m 0 c).arrAt_eq_of_cover 2 (partials m c) (flushed_eq m c) fun i => by
    have hi0 : (i 0).val < 2 := (i 0).isLt
    have hi1 : (i 1).val < 1 := (i 1).isLt
    have hi2 : (i 2).val < 1 := (i 2).isLt
    have hN : cfg0.N = 32 := N_0
    have ht : 16 * (i 0).val + 15 < cfg0.N := by rw [hN]; omega
    refine ⟨⟨16 * (i 0).val + 15, ht⟩, (flush0_2 _).mpr (by show (16 * (i 0).val + 15) % 16 = 15; omega), ?_⟩
    have hx := index_o ⟨16 * (i 0).val + 15, ht⟩
    show i ∈ ((View.whole main_v2).slice (win0_2.rect ⟨16 * (i 0).val + 15, ht⟩)).set
    rw [View.set_slice_whole, Rect.mem_set_unit]
    intro a
    match a with
    | ⟨0, _⟩ =>
      show win0_2.index ⟨16 * (i 0).val + 15, ht⟩ 0 * win0_2.size 0 ≤ (i 0 : Nat) ∧ (i 0 : Nat) < win0_2.index ⟨16 * (i 0).val + 15, ht⟩ 0 * win0_2.size 0 + win0_2.xsize (grid0.coords ⟨16 * (i 0).val + 15, ht⟩) 0
      rw [hx.1, hx.2.2.2 0]
      show (16 * (i 0).val + 15) / 16 * 1 ≤ (i 0 : Nat) ∧ (i 0 : Nat) < (16 * (i 0).val + 15) / 16 * 1 + 1
      omega
    | ⟨1, _⟩ =>
      show win0_2.index ⟨16 * (i 0).val + 15, ht⟩ 1 * win0_2.size 1 ≤ (i 1 : Nat) ∧ (i 1 : Nat) < win0_2.index ⟨16 * (i 0).val + 15, ht⟩ 1 * win0_2.size 1 + win0_2.xsize (grid0.coords ⟨16 * (i 0).val + 15, ht⟩) 1
      rw [hx.2.1, hx.2.2.2 1]
      omega
    | ⟨2, _⟩ =>
      show win0_2.index ⟨16 * (i 0).val + 15, ht⟩ 2 * win0_2.size 2 ≤ (i 2 : Nat) ∧ (i 2 : Nat) < win0_2.index ⟨16 * (i 0).val + 15, ht⟩ 2 * win0_2.size 2 + win0_2.xsize (grid0.coords ⟨16 * (i 0).val + 15, ht⟩) 2
      rw [hx.2.2.1, hx.2.2.2 2]
      omega

/-- A [2, 1, 1] index set is its first coordinate's range. -/
def coreEquiv : S2x1x1.Idx ≃ Fin 2 where
  toFun i := i 0
  invFun a := ix3 a 0 0
  left_inv i := by
    funext b
    apply Fin.ext
    match b with
    | ⟨0, _⟩ => rfl
    | ⟨1, _⟩ => have h : (i 1).val < 1 := (i 1).isLt; show 0 = (i 1).val; omega
    | ⟨2, _⟩ => have h : (i 2).val < 1 := (i 2).isLt; show 0 = (i 2).val; omega
  right_inv _ := rfl

/-- After a core's last step the partial sum is the sum of its sixteen steps. -/
theorem accAt_last (c : Dev nD) (k : ℕ) : accAt m c (16 * k + 15) = ∑ j ∈ range 16, step m c (k * 16 + j) := by
  unfold accAt
  have e1 : (16 * k + 15) % 16 + 1 = 16 := by omega
  have e2 : 16 * ((16 * k + 15) / 16) = k * 16 := by omega
  rw [e1, e2]

/-- The 32 steps add up to the loss: the coefficient moves out of the sum, and the stretches tile the positions. -/
theorem steps_total (c : Dev nD) : ∑ n ∈ range 32, step m c n = loss (parr m c) (karr m c) := by
  unfold step loss total
  rw [ofBits_coef, ← sum_mul_coe _ _ coefR_nonneg]
  refine congrArg (fun z : EReal => z * (coefR : EReal)) ?_
  exact sum_range_blocks (fun n => tm (parr m c) (karr m c) n) 32 524288

/-- The two per-core sums add up to the loss. -/
theorem partials_sum (c : Dev nD) : ∑ i : S2x1x1.Idx, partials m c i = loss (parr m c) (karr m c) := by
  rw [← Equiv.sum_comp coreEquiv.symm (partials m c)]
  refine Eq.trans ?_ (steps_total m c)
  refine Eq.trans ?_ (sum_range_blocks (fun n => step m c n) 2 16)
  refine Eq.trans ?_ (Finset.sum_range (fun u => ∑ q ∈ range 16, step m c (u * 16 + q))).symm
  exact Finset.sum_congr rfl fun a _ => accAt_last m c a.val

/-- The host's sum after the region, from 0, of the array the region leaves. -/
theorem tail_eq (c : Dev nD) :
    Pipeline.afterTail₀ cfgs (dats m) 0 (V0 m) [hostOps1] c main_v3 = fun _ => loss (parr m c) (karr m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = partials m c :=
    (Pipeline.withArrays_arr spec0 launch0.win.arr_inj c _ _ 2).trans (final_o m c)
  rw [hw]
  funext i
  simp only [Host.reduceAdd, Ideal.hostReduceAdd_def]
  refine (Ideal.hostReduceAdd_total reducesTo_S2x1x1_S_d0_1_2 (fun b => b.elim0) (partials m c) _ i).trans ?_
  show Ideal.ofBits .f32 0x00000000#32 + ∑ j, partials m c j = _
  rw [ofBits_zero, zero_add, partials_sum]

/-- The kernel program's run, read: its result is the loss of its two arguments, which end unchanged. -/
theorem run : θ_run defs (onTc (τ := τ) (main (F := Ideal))) ⟨m, fun _ => 0, ρ⟩ fun r => ∀ c : Dev nD,
      r.2.mem ((c.tc : Thread nD τ).loc main_v3) = (fun _ => loss (parr m c) (karr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Final

end
-- ==== Proof.RefValue.lean ====
/-
  The reference's result is the loss.

  Read one operation at a time, the reference selects, at each position of the flat arrays, log p where
  the class word is 0, log (1 + (−p)) where it is 1 and 0 elsewhere — the element's term —, sums the
  16 777 216 terms from 0, and multiplies the coefficient by the sum. On the extended reals the
  product commutes, so this is the total times the coefficient.
-/
import proofs.«141515_j30863634989162_1_alg».proof.Proof.Gen.ReferenceIdeal.Read
import proofs.«141515_j30863634989162_1_alg».proof.Proof.Term

noncomputable section

open Idealize.ShloMosaic Idealize.ShloMosaic.ValueIdx

namespace Cert.ReferenceIdeal.RefValue

open Cert.ReferenceIdeal Cert.ReferenceIdeal.Gen Cert.ReferenceIdeal.Read Cert.FocalSum

/-- The selected value at a position is the element's term. -/
theorem selected_apply (x0 : (⟨S16777216, .f32⟩ : BufTy).Contents (Elt Ideal)) (x1 : (⟨S16777216, .i32⟩ : BufTy).Contents (Elt Ideal))
    (j : S16777216.Idx) : val_main_v9 (F := Ideal) x0 x1 j = term (x0 j) (x1 j) := by
  rw [val_main_v9_apply, val_main_v1_apply, val_main_v0_apply, val_main_c_apply, val_main_v2_apply, val_main_v8_apply,
    val_main_v4_apply, val_main_v3_apply, val_main_c_0_apply, val_main_v6_apply, val_main_v5_apply, val_main_v7_apply,
    val_main_cst_apply]
  show Scalar.select (IntOp.cmpi .eq (x1 j) 0#32) (Ideal.log (x0 j))
      (Scalar.select (IntOp.cmpi .eq (x1 j) 1#32) (Ideal.log1p (-(x0 j))) (Ideal.ofBits .f32 0x00000000#32)) = _
  rw [ofBits_zero]
  rfl

/-- The reference's result, at its one index, is the loss of its two arguments. -/
theorem result_apply (x0 : (⟨S16777216, .f32⟩ : BufTy).Contents (Elt Ideal)) (x1 : (⟨S16777216, .i32⟩ : BufTy).Contents (Elt Ideal))
    (i : S_.Idx) : val_main_v11 (F := Ideal) x0 x1 i = loss x0 x1 := by
  rw [val_main_v11_apply, val_main_cst_2_apply, val_main_v10_apply, val_main_cst_1_apply]
  show Ideal.ofBits .f32 0x3B83126F#32 * (Ideal.ofBits .f32 0x00000000#32 + ∑ j : S16777216.Idx, val_main_v9 (F := Ideal) x0 x1 j) = _
  rw [ofBits_zero, zero_add, ofBits_coef, mul_comm]
  unfold loss
  refine congrArg (fun z : EReal => z * (coefR : EReal)) ?_
  rw [← sum_idx_eq_total]
  exact Finset.sum_congr rfl fun j _ => selected_apply x0 x1 j

end Cert.ReferenceIdeal.RefValue

end
-- ==== Proof.lean ====
/-
  A focal-loss reduction, kernel against reference, over the extended reals.

  For probabilities p and class words k, both flat arrays of 16 777 216 elements, the element's term is
  log p where k = 0, log (1 − p) where k = 1 and 0 elsewhere, and the loss is the sum of the terms
  times a coefficient (the single-precision number nearest 0.004, the same word in both programs).

  The reference selects the terms over the flat arrays, sums them from 0 and multiplies the coefficient
  by the sum. The kernel views the arrays as [2, 65536, 128], gives each of two cores sixteen blocks of
  [4096, 128], and at each step adds (block's sum of terms) · coefficient to a one-element accumulator
  the core zeroes at its first step; the host then adds the two cores' accumulators from 0.

  The two agree because the 32 blocks are the 32 consecutive stretches of 524 288 flat positions
  (Blocks), each step adds its stretch's sum times the coefficient (Payload), the accumulator after a
  step is the partial sum of the core's steps (Acc, by induction on the point), and a nonnegative real
  coefficient moves across a finite sum of extended reals whatever the summands are, infinite ones
  included (SumLaws) — so no bound on p beyond the stated precondition is used, and in fact the
  precondition itself is not needed for the value. The ideal pass rewrote nothing, so the idealized
  kernel is the kernel's own text and `preserves` is trivial; the two kernel frames are the generated
  ones and the reference's frame is its generated run with the result dropped.
-/
import proofs.«141515_j30863634989162_1_alg».proof.Defs
import proofs.«141515_j30863634989162_1_alg».proof.Proof.Gen.Kernel
import proofs.«141515_j30863634989162_1_alg».proof.Proof.Gen.Kernel.Frame
import proofs.«141515_j30863634989162_1_alg».proof.Proof.Gen.KernelIdeal
import proofs.«141515_j30863634989162_1_alg».proof.Proof.Gen.KernelIdeal.Frame
import proofs.«141515_j30863634989162_1_alg».proof.Proof.Gen.ReferenceIdeal
import proofs.«141515_j30863634989162_1_alg».proof.Proof.Gen.ReferenceIdeal.Run
import proofs.«141515_j30863634989162_1_alg».proof.Proof.Gen.ReferenceIdeal.Read
import proofs.«141515_j30863634989162_1_alg».proof.Proof.Gen.Pre_finite_inputs
import proofs.«141515_j30863634989162_1_alg».proof.Proof.Final
import proofs.«141515_j30863634989162_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the loss of the arguments they agree on. -/
theorem algebraic : Cert.algebraic_KernelIdeal_ReferenceIdeal := by
  intro m ρ m' ρ' _ hagree
  refine ⟨fun c => fun _ => Cert.FocalSum.loss (Cert.KernelIdeal.Acc.parr m c) (Cert.KernelIdeal.Acc.karr m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2]
  funext i
  exact Cert.ReferenceIdeal.RefValue.result_apply _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
